-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.Dist.lean ====
/-
  The pairwise squared distance, as a function of four arrays read index by index on the extended reals.

  For a matrix `q` of `N` rows and a matrix `s` of `M` rows, both of width `D`, a column `qn` of `N` numbers and a row
  `sn` of `M` numbers, the entry at row `p`, column `r` is

      max ((qn p + sn r) - 2 · ∑ k < D, q p k · s r k) 0 ,

  the bracketing exactly this one: first the two norms are added, then twice the inner product is taken away, then the
  result is clamped below at zero. When `qn p = ‖q p‖²` and `sn r = ‖s r‖²` this is `‖q p − s r‖²`; nothing here uses
  that, and no law of arithmetic beyond rewriting equal terms is needed: the same formula describes one 1024 × 1024 tile
  (`N = M = 1024`) and the whole 8192 × 8192 array (`N = M = 8192`), and a tile of the array is the formula of the tile's
  rows of `q`, `s`, `qn` and `sn` (`sqd_of_rows`).

  The two constants are kept as the 32-bit patterns of `2.0` and `0.0`; both sides of the comparison this file serves carry
  the same patterns, so they are never evaluated.

  Also here: a column of `a` numbers broadcast along a second axis of extent `b`, read at `(p, c)`, is the column at `p`.
-/
import Idealize.ShloMosaic.PureOps.Ideal
import Idealize.ShloMosaic.Lib.ValueIdx
import Idealize.ShloMosaic.Lib.ValueLayout

noncomputable section

open scoped BigOperators

namespace Cert.SqDist

open Idealize.ShloMosaic Idealize.ShloMosaic.ValueIdx

/-- The squared-distance entry at row `p` of `q` and row `r` of `s`: `max ((qn p + sn r) - 2 · ⟨q p, s r⟩) 0`. -/
def sqd {N M D : ℕ} (qn : (⟨2, ![N, 1]⟩ : Shape).Idx → EReal) (sn : (⟨2, ![1, M]⟩ : Shape).Idx → EReal)
    (q : (⟨2, ![N, D]⟩ : Shape).Idx → EReal) (s : (⟨2, ![M, D]⟩ : Shape).Idx → EReal) (p : Fin N) (r : Fin M) : EReal :=
  max ((qn (ix2 p (0 : Fin 1)) + sn (ix2 (0 : Fin 1) r))
      - Ideal.ofBits .f32 0x40000000#32 * ∑ k : Fin D, q (ix2 p k) * s (ix2 r k))
    (Ideal.ofBits .f32 0x00000000#32)

/-- The whole `N × M` array of squared distances. -/
def sqdArr {N M D : ℕ} (qn : (⟨2, ![N, 1]⟩ : Shape).Idx → EReal) (sn : (⟨2, ![1, M]⟩ : Shape).Idx → EReal)
    (q : (⟨2, ![N, D]⟩ : Shape).Idx → EReal) (s : (⟨2, ![M, D]⟩ : Shape).Idx → EReal) : (⟨2, ![N, M]⟩ : Shape).Idx → EReal :=
  fun i => sqd qn sn q s (i 0) (i 1)

theorem sqdArr_ix2 {N M D : ℕ} (qn : (⟨2, ![N, 1]⟩ : Shape).Idx → EReal) (sn : (⟨2, ![1, M]⟩ : Shape).Idx → EReal)
    (q : (⟨2, ![N, D]⟩ : Shape).Idx → EReal) (s : (⟨2, ![M, D]⟩ : Shape).Idx → EReal) (p : Fin N) (r : Fin M) :
    sqdArr qn sn q s (ix2 p r) = sqd qn sn q s p r := rfl

/-- A tile's entry is the array's: if row `p` of the tile's `q`-rows is row `P` of `q`, row `r` of its `s`-rows is row
    `R` of `s`, and the tile's two norm pieces are the norms at `P` and `R`, the tile's formula at `(p, r)` is the array's at
    `(P, R)`: the two formulas are the same expression of equal numbers. -/
theorem sqd_of_rows {n m N M D : ℕ}
    (x2 : (⟨2, ![n, 1]⟩ : Shape).Idx → EReal) (x3 : (⟨2, ![1, m]⟩ : Shape).Idx → EReal)
    (x0 : (⟨2, ![n, D]⟩ : Shape).Idx → EReal) (x1 : (⟨2, ![m, D]⟩ : Shape).Idx → EReal)
    (qn : (⟨2, ![N, 1]⟩ : Shape).Idx → EReal) (sn : (⟨2, ![1, M]⟩ : Shape).Idx → EReal)
    (q : (⟨2, ![N, D]⟩ : Shape).Idx → EReal) (s : (⟨2, ![M, D]⟩ : Shape).Idx → EReal)
    (p : Fin n) (r : Fin m) (P : Fin N) (R : Fin M)
    (h0 : ∀ k : Fin D, x0 (ix2 p k) = q (ix2 P k)) (h1 : ∀ k : Fin D, x1 (ix2 r k) = s (ix2 R k))
    (h2 : x2 (ix2 p (0 : Fin 1)) = qn (ix2 P (0 : Fin 1))) (h3 : x3 (ix2 (0 : Fin 1) r) = sn (ix2 (0 : Fin 1) R)) :
    sqd x2 x3 x0 x1 p r = sqd qn sn q s P R := by
  unfold sqd
  rw [h2, h3, Finset.sum_congr rfl fun k _ => by rw [h0 k, h1 k]]

/-- An `[a, 1]` column broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.SqDist

end
-- ==== Proof.Payload.lean ====
/-
  One tile of the kernel: what the body computes from the four blocks it loads, read at one entry.

  The body takes a 1024 × 1024 block `x0` of `q` (1024 rows, all 1024 columns), a 1024 × 1024 block `x1` of `s`, a
  1024 × 1 piece `x2` of the column of `q`'s squared norms and a 1 × 1024 piece `x3` of the row of `s`'s squared norms. It
  narrows `x0` and `x1` to bf16 (on the extended reals a change of float format is the identity), multiplies `x0` by the
  transpose of `x1` on the matrix unit into a zero accumulator (contracting the second axis of both operands: entry
  `(p, r)` of the product is `∑ k, x0 p k · x1 r k`), spreads `x2` along the columns and `x3` along the rows, adds the two,
  takes away twice the product and clamps at zero. So entry `(p, r)` of the result is

      max ((x2 p + x3 r) - 2 · ∑ k, x0 p k · x1 r k) 0 ,

  the squared-distance formula `Cert.SqDist.sqd` of the four blocks (`tile_apply`).
-/
import proofs.«152893_j27874337751124_1_alg».proof.Proof.Gen.KernelIdeal.Skeleton
import proofs.«152893_j27874337751124_1_alg».proof.Proof.Dist
import Idealize.ShloMosaic.PureOps.Ideal.Laws
import Idealize.ShloMosaic.Lib.ValueIdx
import Idealize.ShloMosaic.Lib.ValueLayout

noncomputable section

open scoped BigOperators

namespace Cert.SqDist.Tile

open Cert.KernelIdeal Cert.KernelIdeal.Gen Idealize.ShloMosaic Idealize.ShloMosaic.ValueIdx

/-! ## The matrix product's operand indices: rows from the output index, the column the contraction index -/

theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_col (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_col (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of `u` with the transpose of `v`, into a zero accumulator, at entry `(p, r)`: the inner product of row
    `p` of `u` and row `r` of `v`. -/
theorem cross_apply (u v : FVec Ideal S1024x1024 .bf16) (p r : Fin 1024) :
    matmul dot_S1024x1024_S1024x1024_S1024x1024_1_1_0_0_n_n none u v (constant S1024x1024 .f32 0x00000000#32) (ix2 p r)
      = ∑ k : Fin 1024, u (ix2 p k) * v (ix2 r k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p r) ((contrEquiv1 dot_S1024x1024_S1024x1024_S1024x1024_1_1_0_0_n_n 1024 rfl rfl).symm k) = ix2 p k := funext fun a => Fin.ext (by
    match a with
    | ⟨0, _⟩ => exact lhs_row _ _
    | ⟨1, _⟩ => exact (lhs_col _ _).trans hk)
  have er : dot_S1024x1024_S1024x1024_S1024x1024_1_1_0_0_n_n.rhsIdx (ix2 p r) ((contrEquiv1 dot_S1024x1024_S1024x1024_S1024x1024_1_1_0_0_n_n 1024 rfl rfl).symm k) = ix2 r k := funext fun a => Fin.ext (by
    match a with
    | ⟨0, _⟩ => exact rhs_row _ _
    | ⟨1, _⟩ => exact (rhs_col _ _).trans hk)
  rw [el, er]

/-! ## The body's result at an entry -/

/-- Entry `(p, r)` of what the body stores is the squared-distance formula of the four loaded blocks. -/
theorem tile_apply (x0 x1 : FVec Ideal S1024x1024 .f32) (x2 : FVec Ideal S1024x1 .f32) (x3 : FVec Ideal S1x1024 .f32)
    (p r : Fin 1024) :
    k0_pay1 (F := Ideal) x0 x1 x2 x3 (ix2 p r) = sqd x2 x3 x0 x1 p r := by
  unfold k0_pay1 sqd
  show max ((broadcastTo S1024x1024 (shapeCast S1024x1 x2 shapeCasts_S1024x1_S1024x1) broadcasts_S1024x1_S1024x1024 (ix2 p r)
        + broadcastTo S1024x1024 (shapeCast S1x1024 x3 shapeCasts_S1x1024_S1x1024) broadcasts_S1x1024_S1024x1024 (ix2 p r))
      - Ideal.ofBits .f32 0x40000000#32
        * matmul (F := Ideal) dot_S1024x1024_S1024x1024_S1024x1024_1_1_0_0_n_n none
            (truncf (F := Ideal) .bf16 x0 bitsLt_bf16_f32) (truncf (F := Ideal) .bf16 x1 bitsLt_bf16_f32)
            (constant (F := Ideal) S1024x1024 .f32 0x00000000#32) (ix2 p r))
    (Ideal.ofBits .f32 0x00000000#32) = _
  rw [cross_apply, broadcastTo_a1_ab_apply, broadcastTo_1b_ab_apply, shapeCast_self, shapeCast_self]
  rfl

end Cert.SqDist.Tile

end
-- ==== Proof.KernelValue.lean ====
/-
  The kernel's result array: every 1024 × 1024 tile is a tile of ONE array of squared distances.

  The grid has 8 × 8 points. At point `t`, with block indices `(I, J)` of the output window, the kernel is handed rows
  `1024·I … 1024·I + 1023` of `q` and of the column of `q`'s squared norms, rows `1024·J … 1024·J + 1023` of `s` and the same
  stretch of the row of `s`'s squared norms, and writes back the tile `(I, J)` of the output. A block's entry sits in its
  array at block index × block size + its own coordinate on each axis, so entry `(p, r)` of the tile the body computes — the
  squared-distance formula of the four blocks (`Tile.tile_apply`) — is the formula of the whole arrays at
  `(1024·I + p, 1024·J + r)` (`sqd_of_rows`): the point writes back a tile of `sqdArr qn sn q s`. The 64 tiles cover the
  8192 × 8192 output (entry `(a, b)` lies in the tile of the point with block indices `(a / 1024, b / 1024)`), so the output
  array ends as that array.

  The norm column and the norm row are what the program's own host operations wrote before the kernel was launched; they
  are read off the program's operation list once and carried as those terms.
-/
import proofs.«152893_j27874337751124_1_alg».proof.Proof.Gen.KernelIdeal.Value
import proofs.«152893_j27874337751124_1_alg».proof.Proof.Payload
import Idealize.ShloMosaic.Lib.Pipeline.Value
import Idealize.ShloMosaic.Lib.StableHlo.Run

set_option maxRecDepth 16384

noncomputable section

open scoped BigOperators

namespace Cert.SqDist.Kernel

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## Which blocks a point is handed -/

/-- Over the 64 points: the blocks of `q` and of its norm column move with the output's row block, the blocks of `s` and of
    its norm row with the output's column block, every other block index is zero, and the output's block indices are below 8. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every pair of block indices below 8 is some point's. -/
theorem idx_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-! ## The four blocks read as rows of their arrays -/

/-- Row `p` of the `q`-block at `t` is row `1024·I + p` of `q`. -/
theorem qblock_apply (c : Dev nD) (t : Fin cfg0.N) (p k : Fin 1024) (P : Fin 8192)
    (hP : P.val = win0_4.index t (0 : Fin 2) * 1024 + p.val) :
    iblk m c 0 t (ix2 p k) = V m c main_arg0 (ix2 P k) := by
  obtain ⟨e0, e1, -⟩ := idx_facts t
  show V m c main_arg0 (((cfg0.win 0).blk t).view.emb (ix2 p k)) = V m c main_arg0 (ix2 P k)
  refine congrArg (V m c main_arg0) (funext fun a => Fin.ext ?_)
  match a with
  | ⟨0, _⟩ => show win0_0.index t (0 : Fin 2) * 1024 + 1 * p.val = P.val; omega
  | ⟨1, _⟩ => show win0_0.index t (1 : Fin 2) * 1024 + 1 * k.val = k.val; omega

/-- Row `r` of the `s`-block at `t` is row `1024·J + r` of `s`. -/
theorem sblock_apply (c : Dev nD) (t : Fin cfg0.N) (r k : Fin 1024) (R : Fin 8192)
    (hR : R.val = win0_4.index t (1 : Fin 2) * 1024 + r.val) :
    iblk m c 1 t (ix2 r k) = V m c main_arg1 (ix2 R k) := by
  obtain ⟨-, -, e2, e3, -⟩ := idx_facts t
  show V m c main_arg1 (((cfg0.win 1).blk t).view.emb (ix2 r k)) = V m c main_arg1 (ix2 R k)
  refine congrArg (V m c main_arg1) (funext fun a => Fin.ext ?_)
  match a with
  | ⟨0, _⟩ => show win0_1.index t (0 : Fin 2) * 1024 + 1 * r.val = R.val; omega
  | ⟨1, _⟩ => show win0_1.index t (1 : Fin 2) * 1024 + 1 * k.val = k.val; omega

/-- Entry `p` of the norm-column piece at `t` is entry `1024·I + p` of the norm column. -/
theorem qnblock_apply (c : Dev nD) (t : Fin cfg0.N) (p : Fin 1024) (P : Fin 8192)
    (hP : P.val = win0_4.index t (0 : Fin 2) * 1024 + p.val) :
    iblk m c 2 t (ix2 p (0 : Fin 1)) = V m c main_v2 (ix2 P (0 : Fin 1)) := by
  obtain ⟨-, -, -, -, e4, e5, -⟩ := idx_facts t
  show V m c main_v2 (((cfg0.win 2).blk t).view.emb (ix2 p (0 : Fin 1))) = V m c main_v2 (ix2 P (0 : Fin 1))
  refine congrArg (V m c main_v2) (funext fun a => Fin.ext ?_)
  match a with
  | ⟨0, _⟩ => show win0_2.index t (0 : Fin 2) * 1024 + 1 * p.val = P.val; omega
  | ⟨1, _⟩ => show win0_2.index t (1 : Fin 2) * 1 + 1 * 0 = 0; omega

/-- Entry `r` of the norm-row piece at `t` is entry `1024·J + r` of the norm row. -/
theorem snblock_apply (c : Dev nD) (t : Fin cfg0.N) (r : Fin 1024) (R : Fin 8192)
    (hR : R.val = win0_4.index t (1 : Fin 2) * 1024 + r.val) :
    iblk m c 3 t (ix2 (0 : Fin 1) r) = V m c main_v6 (ix2 (0 : Fin 1) R) := by
  obtain ⟨-, -, -, -, -, -, e6, e7, -⟩ := idx_facts t
  show V m c main_v6 (((cfg0.win 3).blk t).view.emb (ix2 (0 : Fin 1) r)) = V m c main_v6 (ix2 (0 : Fin 1) R)
  refine congrArg (V m c main_v6) (funext fun a => Fin.ext ?_)
  match a with
  | ⟨0, _⟩ => show win0_3.index t (0 : Fin 2) * 1 + 1 * 0 = 0; omega
  | ⟨1, _⟩ => show win0_3.index t (1 : Fin 2) * 1024 + 1 * r.val = R.val; omega

/-! ## What a point writes back -/

/-- The array of squared distances of the arrays the kernel is launched on. -/
abbrev target (c : Dev nD) : S8192x8192.Idx → EReal :=
  sqdArr (V m c main_v2) (V m c main_v6) (V m c main_arg0) (V m c main_arg1)

/-- Point `t` writes back tile `t` of the array of squared distances. -/
theorem flushed_eq (c : Dev nD) (t : Fin cfg0.N) :
    (dats m 0 c).flushed 4 t = ((cfg0.win 4).blk t).view.read (Elt Ideal) (target m c) := by
  rw [flushed4]
  unfold out0_4
  rw [View.canon_unit_zero zero_offsets]
  simp only [View.ld_unit_zero (S := S1024x1024) zero_offsets, View.ld_unit_zero (S := S1024x1) zero_offsets,
    View.ld_unit_zero (S := S1x1024) zero_offsets]
  obtain ⟨-, -, -, -, -, -, -, -, b0, b1⟩ := idx_facts t
  funext j
  obtain ⟨p, r, rfl⟩ : ∃ (p r : Fin 1024), j = ix2 p r := ⟨j 0, j 1, eq_ix2 j⟩
  have hp : p.val < 1024 := p.isLt
  have hr : r.val < 1024 := r.isLt
  have hemb : ((cfg0.win 4).blk t).view.emb (ix2 p r)
      = ix2 (⟨win0_4.index t (0 : Fin 2) * 1024 + p.val, by omega⟩ : Fin 8192) (⟨win0_4.index t (1 : Fin 2) * 1024 + r.val, by omega⟩ : Fin 8192) := by
    funext a; apply Fin.ext
    match a with
    | ⟨0, _⟩ => show win0_4.index t (0 : Fin 2) * 1024 + 1 * p.val = win0_4.index t (0 : Fin 2) * 1024 + p.val; omega
    | ⟨1, _⟩ => show win0_4.index t (1 : Fin 2) * 1024 + 1 * r.val = win0_4.index t (1 : Fin 2) * 1024 + r.val; omega
  show k0_pay1 (F := Ideal) (iblk m c 0 t) (iblk m c 1 t) (iblk m c 2 t) (iblk m c 3 t) (ix2 p r)
    = target m c (((cfg0.win 4).blk t).view.emb (ix2 p r))
  rw [hemb]
  refine (Tile.tile_apply (iblk m c 0 t) (iblk m c 1 t) (iblk m c 2 t) (iblk m c 3 t) p r).trans ?_
  exact sqd_of_rows (iblk m c 2 t) (iblk m c 3 t) (iblk m c 0 t) (iblk m c 1 t)
    (V m c main_v2) (V m c main_v6) (V m c main_arg0) (V m c main_arg1) p r _ _
    (fun k => qblock_apply m c t p k _ rfl) (fun k => sblock_apply m c t r k _ rfl)
    (qnblock_apply m c t p _ rfl) (snblock_apply m c t r _ rfl)

/-! ## The tiles cover the output -/

/-- An entry of the output is in point `t`'s tile iff each coordinate is in the tile's range on its axis. -/
theorem mem_tile (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v7).slice (win0_4.rect t)).set ↔ _
  rw [View.set_slice_whole, Rect.mem_set_unit]
  exact Iff.rfl

/-- Every entry of the output is in some point's tile: the point whose block indices are the coordinates' quotients by 1024. -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_tile]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The output array after the run is the array of squared distances. -/
theorem final (c : Dev nD) : (dats m 0 c).arrAt 4 cfg0.N = target m c :=
  (dats m 0 c).arrAt_eq_of_cover 4 (target m c) (fun t _ => flushed_eq m c t) covered

/-! ## The norm column and the norm row the kernel is launched on -/

/-- The column of squared norms of the rows of `a`, as the program's host operations compute it: the sum of `a · a` along
    the second axis from a zero, set up as a column. -/
def normCol (a : FVec Ideal S8192x1024 .f32) : FVec Ideal S8192x1 .f32 :=
  broadcastInDim S8192x1 ![0] bcast_S8192_S8192x1_0
    (Host.reduceAdd (F := Ideal) (mulf a a) (constant (F := Ideal) S_ .f32 0x00000000#32) reducesTo_S8192x1024_S8192_d1 h_S_)

/-- The same column laid out as a row. -/
def normRow (a : FVec Ideal S8192x1024 .f32) : FVec Ideal S1x8192 .f32 :=
  transpose S1x8192 [1, 0] (normCol a) transposes_S8192x1_S1x8192_1_0

theorem V_main_v2 (c : Dev nD) :
    (V m c main_v2 : S8192x1.Idx → EReal) = normCol (m ((c.tc : Thread nD τ).loc main_arg0)) := by
  unfold normCol
  dsimp only [Gen.V, Gen.hostOps0]; after_results

theorem V_main_v6 (c : Dev nD) :
    (V m c main_v6 : S1x8192.Idx → EReal) = normRow (m ((c.tc : Thread nD τ).loc main_arg1)) := by
  unfold normRow normCol
  dsimp only [Gen.V, Gen.hostOps0]; after_results

/-- The array of squared distances, in terms of the launch memory's two arguments alone. -/
theorem target_eq (c : Dev nD) :
    target m c = sqdArr (normCol (m ((c.tc : Thread nD τ).loc main_arg0))) (normRow (m ((c.tc : Thread nD τ).loc main_arg1)))
      (m ((c.tc : Thread nD τ).loc main_arg0)) (m ((c.tc : Thread nD τ).loc main_arg1)) := by
  unfold target
  rw [V_main_v2, V_main_v6, V_main_arg0, V_main_arg1]

/-! ## The run -/

/-- Every weakly fair execution of the kernel's program terminates with the output array at the array of squared
    distances of the two arguments, and the arguments unchanged. -/
theorem run : θ_run defs (onTc (τ := τ) (main (F := Ideal))) ⟨m, fun _ => 0, ρ⟩ fun r => ∀ c : Dev nD,
      r.2.mem ((c : Thread nD τ).loc main_v7)
        = sqdArr (normCol (m ((c.tc : Thread nD τ).loc main_arg0))) (normRow (m ((c.tc : Thread nD τ).loc main_arg1)))
            (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (target_eq m c)), (h c).2⟩)
    (run_blocks m ρ)

end Cert.SqDist.Kernel

end
-- ==== Proof.RefValue.lean ====
/-
  The reference, read at one entry.

  The reference forms the column of `q`'s squared norms and the row of `s`'s squared norms, the full product of `q` with the
  transpose of `s` by one contraction over the second axis of both, spreads the column along the columns and the row along the
  rows of an 8192 × 8192 array, adds them, takes away twice the product and clamps at zero. Read at entry `(p, r)`, operation
  by operation, that is

      max ((qn p + sn r) - 2 · ∑ k, q p k · s r k) 0

  with `qn` the column and `sn` the row it computed: the squared-distance formula `Cert.SqDist.sqdArr` of those two arrays
  and the two arguments. The column and the row themselves are left as the stages that compute them: the kernel's program
  computes them by the same operations, and nothing here needs their entries.
-/
import proofs.«152893_j27874337751124_1_alg».proof.Proof.Gen.ReferenceIdeal.Read
import proofs.«152893_j27874337751124_1_alg».proof.Proof.Dist

noncomputable section

open scoped BigOperators

namespace Cert.SqDist.Ref

open Cert.ReferenceIdeal Cert.ReferenceIdeal.Read Idealize.ShloMosaic Idealize.ShloMosaic.ValueIdx

/-- The reference's result is the array of squared distances of its own norm column and norm row. -/
theorem result_eq (a b : (⟨S8192x1024, .f32⟩ : BufTy).Contents (Elt Ideal)) :
    val_main_v15 (F := Ideal) a b = sqdArr (val_main_v2 (F := Ideal) a) (val_main_v6 (F := Ideal) b) a b := by
  funext i
  obtain ⟨p, r, rfl⟩ : ∃ (p r : Fin 8192), i = ix2 p r := ⟨i 0, i 1, eq_ix2 i⟩
  have e8 : idx_main_v8 (ix2 p r) = ix2 p (0 : Fin 1) := funext fun d => Fin.ext (by match d with | ⟨0, _⟩ => rfl | ⟨1, _⟩ => rfl)
  have e9 : idx_main_v9 (ix2 p r) = ix2 (0 : Fin 1) r := funext fun d => Fin.ext (by match d with | ⟨0, _⟩ => rfl | ⟨1, _⟩ => rfl)
  have el : ∀ k : Fin 1024, lidx_main_v7 (ix2 p r) k = ix2 p k := fun k => funext fun d => Fin.ext (by match d with | ⟨0, _⟩ => rfl | ⟨1, _⟩ => rfl)
  have er : ∀ k : Fin 1024, ridx_main_v7 (ix2 p r) k = ix2 r k := fun k => funext fun d => Fin.ext (by match d with | ⟨0, _⟩ => rfl | ⟨1, _⟩ => rfl)
  rw [sqdArr_ix2, val_main_v15_apply, val_main_v13_apply, val_main_v10_apply, val_main_v12_apply, val_main_v8_apply,
    val_main_v9_apply, val_main_v11_apply, val_main_v14_apply, val_main_v7_apply, e8, e9]
  simp only [el, er]
  rfl

end Cert.SqDist.Ref

end
-- ==== Proof.lean ====
/-
  Pairwise squared distances: a tiled kernel against the plain formula.

  Both programs take `q` and `s`, 8192 × 1024 each, and return the 8192 × 8192 array whose entry `(n, j)` is

      max ((‖q n‖² + ‖s j‖²) - 2 · ∑ k, q n k · s j k) 0 ,

  with `‖q n‖² = 0 + ∑ k, q n k · q n k` formed first, as a column for `q` and as a row for `s`, by the same host operations
  in both programs. The reference then forms the whole product of `q` with the transpose of `s` in one contraction and
  combines whole arrays. The kernel cuts the output into 8 × 8 tiles of 1024 × 1024; for each it loads 1024 rows of `q`, 1024
  rows of `s` and the matching pieces of the two norm arrays, narrows the rows to bf16, multiplies on the matrix unit into a
  zero accumulator and combines within the tile.

  On the extended reals a change of float format is the identity and the matrix unit's product into zero is the plain sum
  of products, so a tile's entry is the same expression as the reference's entry, of the same numbers, bracketed the same
  way: no law of arithmetic is used, only that a block's entry is its array's entry at block index × 1024 + the entry's
  own coordinate, and that the 64 tiles cover the output. The precondition is never opened.

  The pieces: `Proof/Dist.lean` states the formula once for any extents; `Proof/Payload.lean` reads a tile's body at an entry;
  `Proof/KernelValue.lean` reads the blocks as rows of the arrays, shows each point writes back a tile of the one array and
  that the tiles cover it, and reads the two norm arrays off the program's host operations; `Proof/RefValue.lean` reads the
  reference at an entry. Here the two norm terms of the two programs are identified (they are the same operations) and the
  five claims are assembled. The idealized kernel is the kernel's own text read on the extended reals, nothing in it rewritten, so
  the claim that relates the two is trivial.
-/
import proofs.«152893_j27874337751124_1_alg».proof.Defs
import proofs.«152893_j27874337751124_1_alg».proof.Proof.Gen.Kernel
import proofs.«152893_j27874337751124_1_alg».proof.Proof.Gen.Kernel.Skeleton
import proofs.«152893_j27874337751124_1_alg».proof.Proof.Gen.Kernel.Launch
import proofs.«152893_j27874337751124_1_alg».proof.Proof.Gen.Kernel.Points
import proofs.«152893_j27874337751124_1_alg».proof.Proof.Gen.Kernel.Frame
import proofs.«152893_j27874337751124_1_alg».proof.Proof.Gen.KernelIdeal
import proofs.«152893_j27874337751124_1_alg».proof.Proof.Gen.KernelIdeal.Skeleton
import proofs.«152893_j27874337751124_1_alg».proof.Proof.Gen.KernelIdeal.Launch
import proofs.«152893_j27874337751124_1_alg».proof.Proof.Gen.KernelIdeal.Points
import proofs.«152893_j27874337751124_1_alg».proof.Proof.Gen.KernelIdeal.Frame
import proofs.«152893_j27874337751124_1_alg».proof.Proof.Gen.ReferenceIdeal
import proofs.«152893_j27874337751124_1_alg».proof.Proof.Gen.Pre_finite_inputs
import proofs.«152893_j27874337751124_1_alg».proof.Proof.Gen.KernelIdeal.Value
import proofs.«152893_j27874337751124_1_alg».proof.Proof.Gen.ReferenceIdeal.Run
import proofs.«152893_j27874337751124_1_alg».proof.Proof.Gen.ReferenceIdeal.Read
import proofs.«152893_j27874337751124_1_alg».proof.Proof.KernelValue
import proofs.«152893_j27874337751124_1_alg».proof.Proof.RefValue
import Idealize.ShloMosaic.Adequacy
import Idealize.ShloMosaic.Init

noncomputable section

namespace Cert.Proof

open Idealize.ShloMosaic Idealize.SL.Sem Cert.Kernel

/-! ## The two programs compute the norm arrays by the same operations -/

/-- The kernel program's norm column is the reference's: both are the sum of `a · a` along the second axis from a zero,
    set up as a column. -/
theorem normCol_eq (a : FVec Ideal Cert.KernelIdeal.S8192x1024 .f32) :
    Cert.SqDist.Kernel.normCol a = Cert.ReferenceIdeal.Read.val_main_v2 (F := Ideal) a := rfl

/-- The kernel program's norm row is the reference's: that column laid out as a row. -/
theorem normRow_eq (a : FVec Ideal Cert.KernelIdeal.S8192x1024 .f32) :
    Cert.SqDist.Kernel.normRow a = Cert.ReferenceIdeal.Read.val_main_v6 (F := Ideal) a := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten, so nothing is owed. -/
theorem preserves : Cert.preserves_Kernel_KernelIdeal := trivial

/-- From memories agreeing on `q` and `s`, the kernel's output array and the reference's result are both the array of
    squared distances of `q`, `s` and their norm arrays. -/
theorem algebraic : Cert.algebraic_KernelIdeal_ReferenceIdeal := by
  intro m ρ m' ρ' _ hagree
  refine ⟨_, Cert.SqDist.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.SqDist.Ref.result_eq, (hagree c).1, (hagree c).2,
    ← normCol_eq, ← normRow_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
